-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S1x4096 : Shape := ⟨2, ![1, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.ColumnScale.lean ====
/-
  The function both programs compute, on the extended reals: every column of an 8192 × 4096 matrix is scaled
  by the exponential of that column's log-weight,

      out[r, c] = x[r, c] · e^{w[c]}        (0 ≤ r < 8192, 0 ≤ c < 4096).

  It is stated once, index by index, so that the kernel's run and the reference's run can be posted at the
  same term. The product and the exponential are the exact ones of the extended reals (e^{-∞} = 0,
  e^{+∞} = +∞); no law of arithmetic is needed to join the two sides, since both apply the same two
  operations to the same two entries, and so finiteness of the inputs is never used.
-/
import Idealize.ShloMosaic.PureOps.Ideal
import Idealize.ShloMosaic.Lib.ValueIdx

noncomputable section

namespace Cert.ColumnScale

open Idealize.ShloMosaic Idealize.ShloMosaic.ValueIdx

/-- The matrix's shape, 8192 rows by 4096 columns. -/
abbrev Mat : Shape := ⟨2, ![8192, 4096]⟩
/-- The shape of the vector of log-weights, one per column. -/
abbrev Cols : Shape := ⟨1, ![4096]⟩

/-- Entry `(r, c)` of the result is `x[r, c] · e^{w[c]}`: the entry's own column `c = i 1` picks the weight. -/
def scaled (x : Mat.Idx → EReal) (w : Cols.Idx → EReal) : Mat.Idx → EReal :=
  fun i => x i * Ideal.exp (w (ix1 (i 1)))

theorem scaled_apply (x : Mat.Idx → EReal) (w : Cols.Idx → EReal) (i : Mat.Idx) :
    scaled x w i = x i * Ideal.exp (w (ix1 (i 1))) := rfl

end Cert.ColumnScale

end
-- ==== Proof.KernelScale.lean ====
/-
  The kernel computes the column scaling. Its one pipelined region walks 16 grid points; at point `t` it fetches
  the block of rows `512·t … 512·t + 511` of the input (all 4096 columns), keeps the one-row matrix of
  log-weights resident, and writes back the same block of rows of the output. The body multiplies the input
  block, entry by entry, with the exponentiated weight row repeated down the block's 512 rows.

  So at point `t` entry `(p, q)` of the block written back is `x[512·t + p, q] · e^{w[q]}`: block `t` of the
  column scaling of the whole arrays. The 16 blocks of rows tile the 8192 rows, hence the output array ends
  holding the column scaling everywhere. The one-row matrix the region reads is the weight vector reshaped by
  the host operation in front of the region: its entry `(0, q)` is `w[q]`.
-/
import proofs.«401901_j50629074486108_3_alg».proof.Proof.Gen.KernelIdeal.Value
import proofs.«401901_j50629074486108_3_alg».proof.Proof.ColumnScale
import Idealize.ShloMosaic.Lib.Pipeline.Value
import Idealize.ShloMosaic.Lib.ValueIdx
import Idealize.ShloMosaic.Lib.StableHlo.Run

noncomputable section

namespace Cert.KernelIdeal.Scale

open Cert.KernelIdeal Cert.KernelIdeal.Gen Cert.ColumnScale
open Idealize.ShloMosaic Idealize.ShloMosaic.TcCoe Idealize.SL.Sem Idealize.ShloMosaic.ValueIdx
open Idealize.ShloMosaic.Pipeline (Dat)

/-! ## The body at one point -/

/-- The body's accesses start at the origin of their buffers. -/
theorem origin : (![0, 0] : Fin 2 → Nat) = fun _ => 0 := funext fun a => by fin_cases a <;> rfl

/-- What the body leaves in the output block, entry by entry, at any float instance: the input block's entry
    times the exponential of the weight row's entry in the same column. -/
theorem block_value {F : FTy → Type} [FloatOps F] (x0 : Vec F S512x4096 .f32) (x1 : Vec F S1x4096 .f32)
    (y : S512x4096.Idx) :
    out0_2 x0 x1 y = FloatOps.mulf (x0 y) (FloatOps.exp (x1 (Value.ix2_1 y))) := by
  unfold out0_2
  rw [Value.canon2_eq]
  show FloatOps.mulf ((View.ld x0 r0_0) (Value.ix2_0 y)) (FloatOps.exp ((View.ld x1 r0_1) (Value.ix2_1 y))) = _
  have l0 : View.ld x0 r0_0 = x0 := View.ld_unit_zero (S := S512x4096) origin _ x0
  have l1 : View.ld x1 r0_1 = x1 := View.ld_unit_zero (S := S1x4096) origin _ x1
  rw [l0, l1]
  have e0 : Value.ix2_0 y = y := funext fun a => Fin.ext (by match a with | ⟨0, _⟩ => rfl | ⟨1, _⟩ => rfl)
  rw [e0]

variable (m : (ℓ : Loc nD τ sig) → Buf (Elt Ideal) ℓ) (ρ : Dev nD → PrngReg)

/-! ## The weight row the region finds -/

/-- The region finds the one-row matrix as the host's reshape of the weight vector left it. -/
theorem row_eq (c : Dev nD) :
    (V m c main_v0 : S1x4096.Idx → Elt Ideal .f32)
      = shapeCast S1x4096 (m ((c : Thread nD τ).loc main_arg1)) shapeCasts_S4096_S1x4096 := by
  dsimp only [V, hostOps0]
  after_results
  rfl

/-- Entry `(0, q)` of that one-row matrix is entry `q` of the weight vector: a reshape keeps the row-major
    position, and position `0 · 4096 + q` of the matrix is position `q` of the vector. -/
theorem row_apply (c : Dev nD) (k : S1x4096.Idx) :
    V m c main_v0 k = m ((c : Thread nD τ).loc main_arg1) (ix1 (k 1)) := by
  have h0 : (k 0).val < 1 := (k 0).isLt
  rw [row_eq]
  exact shapeCast_apply _ _ k (ix1 (k 1)) (by
    rw [Shape.rowMajor_val_two, Shape.rowMajor_val_one]
    show (k 1).val = (k 0).val * 4096 + (k 1).val
    omega)

/-! ## Block `t` of the output -/

/-- The printed index maps, decided over the 16 grid points: the input and the output blocks are the same
    block of rows `t` in the one block of columns, and the weight row is always block `(0, 0)`. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the column scaling of the argument arrays. -/
theorem flushed_eq (c : Dev nD) (t : Fin cfg0.N) :
    (dats m 0 c).flushed 2 t = ((cfg0.win 2).blk t).view.read (Elt Ideal)
      (scaled (m ((c : Thread nD τ).loc main_arg0)) (m ((c : Thread nD τ).loc main_arg1))) := by
  rw [Value.flushed2]
  funext j
  show out0_2 (iblk m c 0 t) (iblk m c 1 t) j = scaled _ _ (((cfg0.win 2).blk t).view.emb j)
  refine (block_value (iblk m c 0 t) (iblk m c 1 t) j).trans ?_
  obtain ⟨e0, e1, e2, e3, e4, e5⟩ := idx_facts t
  -- the input block and the output block sit at the same place of their arrays
  have h0 : ((cfg0.win 0).blk t).view.emb j = ((cfg0.win 2).blk t).view.emb j := by
    funext a; apply Fin.ext
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 4096 + 1 * (j 1).val = win0_2.index t (1 : Fin 2) * 4096 + 1 * (j 1).val
      omega
  -- the weight the body reads for entry `j` is the weight of `j`'s column in the array
  have h1 : (ix1 ((((cfg0.win 1).blk t).view.emb (Value.ix2_1 j)) 1) : S4096.Idx)
      = ix1 ((((cfg0.win 2).blk t).view.emb j) 1) :=
    funext fun a => Fin.ext (by
      match a with
      | ⟨0, _⟩ =>
        show win0_1.index t (1 : Fin 2) * 4096 + 1 * (j 1).val = win0_2.index t (1 : Fin 2) * 4096 + 1 * (j 1).val
        omega)
  show FloatOps.mulf (F := Ideal) (φ := .f32) (V m c main_arg0 (((cfg0.win 0).blk t).view.emb j))
      (FloatOps.exp (F := Ideal) (φ := .f32) (V m c main_v0 (((cfg0.win 1).blk t).view.emb (Value.ix2_1 j)))) = _
  rw [h0, V_main_arg0, row_apply, h1, scaled_apply]
  rfl

/-! ## The 16 blocks of rows tile the output -/

/-- An entry of the output array is in point `t`'s block iff each of its coordinates is in the block's range. -/
theorem mem_blk (t : Fin cfg0.N) (i : S8192x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v1).slice (win0_2.rect t)).set ↔ _
  rw [View.set_slice_whole, Rect.mem_set_unit]
  exact Iff.rfl

/-- Every entry of the output array is written back by some point: row `r` lies in block `r / 512`. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hlt : (i 0).val / 512 < cfg0.N := by show (i 0).val / 512 < 16; omega
  obtain ⟨e0, e1, e2, e3, e4, e5⟩ := idx_facts ⟨(i 0).val / 512, hlt⟩
  have e4' : win0_2.index ⟨(i 0).val / 512, hlt⟩ (0 : Fin 2) = (i 0).val / 512 := e4
  refine ⟨⟨(i 0).val / 512, hlt⟩, flush0_2 _, ?_⟩
  rw [mem_blk]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    omega
  | ⟨1, _⟩ =>
    show win0_2.index ⟨(i 0).val / 512, hlt⟩ (1 : Fin 2) * 4096 ≤ (i 1).val
      ∧ (i 1).val < win0_2.index ⟨(i 0).val / 512, hlt⟩ (1 : Fin 2) * 4096 + 4096
    omega

/-! ## The run -/

/-- After the region the output array holds the column scaling of the argument arrays, everywhere. -/
theorem final (c : Dev nD) : (dats m 0 c).arrAt 2 cfg0.N
    = scaled (m ((c : Thread nD τ).loc main_arg0)) (m ((c : Thread nD τ).loc main_arg1)) :=
  (dats m 0 c).arrAt_eq_of_cover 2 _ (fun t _ => flushed_eq m c t) cover

/-- Every weakly fair execution of the kernel's program ends with the result array at the column scaling of the
    arguments, and the arguments as they were. -/
theorem run : θ_run defs (onTc (τ := τ) (main (F := Ideal))) ⟨m, fun _ => 0, ρ⟩ fun r => ∀ c : Dev nD,
      r.2.mem ((c : Thread nD τ).loc main_v1)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Scale

end
-- ==== Proof.ReferenceScale.lean ====
/-
  The reference computes the column scaling: its four host operations — the exponential of the weight vector, the
  vector laid out as a one-row matrix, that row repeated down all 8192 rows, and the entrywise product with the
  input — leave at entry `(r, c)` the product `x[r, c] · e^{w[c]}`. Reading the last stage at an index walks the
  two broadcasts back: entry `(r, c)` of the repeated matrix is entry `(0, c)` of the one-row matrix, which is
  entry `c` of the exponentiated vector.
-/
import proofs.«401901_j50629074486108_3_alg».proof.Proof.Gen.ReferenceIdeal.Read
import proofs.«401901_j50629074486108_3_alg».proof.Proof.ColumnScale

noncomputable section

namespace Cert.ReferenceIdeal.Scale

open Cert.ReferenceIdeal Cert.ReferenceIdeal.Read Cert.ColumnScale
open Idealize.ShloMosaic Idealize.ShloMosaic.ValueIdx

/-- Walking both broadcasts back from entry `(r, c)` of the matrix lands on entry `c` of the vector. -/
theorem idx_column (i : S8192x4096.Idx) : idx_main_v1 (idx_main_v2 i) = ix1 (i 1) :=
  funext fun a => Fin.ext (by match a with | ⟨0, _⟩ => rfl)

/-- The reference's result, as its last stage, is the column scaling of its two arguments. -/
theorem result_eq (x : S8192x4096.Idx → EReal) (w : S4096.Idx → EReal) :
    val_main_v3 (F := Ideal) x w = scaled x w := by
  funext i
  rw [val_main_v3_apply, val_main_v2_apply, val_main_v1_apply, val_main_v0_apply, idx_column, scaled_apply]
  rfl

end Cert.ReferenceIdeal.Scale

end
-- ==== Proof.lean ====
/-
  The kernel scales every column of an 8192 × 4096 matrix by the exponential of that column's log-weight,
  `out[r, c] = x[r, c] · e^{w[c]}`, one block of 512 rows per grid point; the reference computes the same
  product on the host after broadcasting the exponentiated weight vector down the rows.

  On the extended reals both results are the one function `ColumnScale.scaled` of the two argument arrays:
    * the kernel's output array after its run (`KernelIdeal.Scale.run`: what each grid point writes back is a
      block of that function, and the 16 blocks of rows tile the array);
    * the reference's result after its run (`ReferenceIdeal.Scale.result_eq`: its last stage read at an index
      through its two broadcasts).
  The two sides apply the same product and the same exponential to the same entries, so they agree wherever the
  arguments do, with no use of finiteness. The kernel and its idealization are the same text read at two float
  instances (no rewrite was applied), and each program's frame is its run with the result forgotten.
-/
import proofs.«401901_j50629074486108_3_alg».proof.Defs
import proofs.«401901_j50629074486108_3_alg».proof.Proof.Gen.Kernel
import proofs.«401901_j50629074486108_3_alg».proof.Proof.Gen.Kernel.Skeleton
import proofs.«401901_j50629074486108_3_alg».proof.Proof.Gen.Kernel.Launch
import proofs.«401901_j50629074486108_3_alg».proof.Proof.Gen.Kernel.Points
import proofs.«401901_j50629074486108_3_alg».proof.Proof.Gen.Kernel.Frame
import proofs.«401901_j50629074486108_3_alg».proof.Proof.Gen.KernelIdeal
import proofs.«401901_j50629074486108_3_alg».proof.Proof.Gen.KernelIdeal.Skeleton
import proofs.«401901_j50629074486108_3_alg».proof.Proof.Gen.KernelIdeal.Launch
import proofs.«401901_j50629074486108_3_alg».proof.Proof.Gen.KernelIdeal.Points
import proofs.«401901_j50629074486108_3_alg».proof.Proof.Gen.KernelIdeal.Frame
import proofs.«401901_j50629074486108_3_alg».proof.Proof.Gen.ReferenceIdeal
import proofs.«401901_j50629074486108_3_alg».proof.Proof.Gen.Pre_finite_inputs
import proofs.«401901_j50629074486108_3_alg».proof.Proof.Gen.KernelIdeal.Value
import proofs.«401901_j50629074486108_3_alg».proof.Proof.Gen.ReferenceIdeal.Run
import proofs.«401901_j50629074486108_3_alg».proof.Proof.Gen.ReferenceIdeal.Read
import proofs.«401901_j50629074486108_3_alg».proof.Proof.ColumnScale
import proofs.«401901_j50629074486108_3_alg».proof.Proof.KernelScale
import proofs.«401901_j50629074486108_3_alg».proof.Proof.ReferenceScale
import Idealize.ShloMosaic.Adequacy
import Idealize.ShloMosaic.Init

noncomputable section

namespace Cert.Proof

open Idealize.ShloMosaic Idealize.SL.Sem Cert.ColumnScale

/-- The kernel as printed terminates without a fault and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the column scaling of their arguments; the arguments agree, so the results do. -/
theorem algebraic : Cert.algebraic_KernelIdeal_ReferenceIdeal := by
  intro m ρ m' ρ' _ hagree
  refine ⟨fun c => scaled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Scale.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Scale.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
